-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S50000x512 .f32) (main_arg1 : FVec F S512x512 .f32) (main_arg2 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S50000x512 : Shape := ⟨2, ![50000, 512]⟩
abbrev S512x512 : Shape := ⟨2, ![512, 512]⟩
abbrev S512 : Shape := ⟨1, ![512]⟩
abbrev S1x512 : Shape := ⟨2, ![1, 512]⟩
abbrev S2000x512 : Shape := ⟨2, ![2000, 512]⟩

abbrev nBuf : Space → Nat
  | .hbm => 5
  | .vmem => 6
  | .smem => 0
  | _ => 0

abbrev bufTy : (tb : Table) → Fin (tcTables nBuf tb) → BufTy
  | .hbm, ⟨0, _⟩ => ⟨S50000x512, .f32⟩
  | .hbm, ⟨1, _⟩ => ⟨S512x512, .f32⟩
  | .hbm, ⟨2, _⟩ => ⟨S512, .f32⟩
  | .hbm, ⟨3, _⟩ => ⟨S1x512, .f32⟩
  | .hbm, ⟨4, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  dot_S2000x512_S512x512_S2000x512_1_1_0_0_n_n_wf : DotDims.WF S2000x512 S512x512 S2000x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)

variable [Facts₀]

def dot_S2000x512_S512x512_S2000x512_1_1_0_0_n_n : DotDims S2000x512 S512x512 S2000x512 where
  lhsContracting := [1]
  rhsContracting := [1]
  lhsNonContracting := [0]
  rhsNonContracting := [0]
  lhsBatch := []
  rhsBatch := []
  wf := dot_S2000x512_S512x512_S2000x512_1_1_0_0_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x512 : Shape := ⟨2, ![50000, 512]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S50000x512, .f32⟩
  | .hbm, ⟨5, _⟩ => ⟨S1x512, .f32⟩
  | .hbm, ⟨6, _⟩ => ⟨S50000x512, .f32⟩
  | .hbm, ⟨7, _⟩ => ⟨S50000x512, .f32⟩
  | .hbm, ⟨8, _⟩ => ⟨S_, .f32⟩
  | .hbm, ⟨9, _⟩ => ⟨S50000x512, .f32⟩
  | .hbm, ⟨10, _⟩ => ⟨S50000x512, .f32⟩
  | .hbm, ⟨11, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  dot_S50000x512_S512x512_S50000x512_1_0_0_1_n_n_wf : DotDims.WF S50000x512 S512x512 S50000x512 [1] [0] [0] [1] [] []

variable [Facts₀]

def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.Residual.lean ====
/-
  The function both programs compute, and the one law that joins their two arrangements.

  For a matrix `X` of 50000 rows and 512 features, a square weight matrix `W` and a bias vector `B`, the
  residual linear layer is
      out[r, j] = X[r, j] + s · ( Σ_k X[r, k] · W[j, k]  +  B[j] ),
  where `s` is the binary32 number nearest to one tenth, the same word in both programs, so it is never evaluated
  beyond knowing that it is a non-negative real.  One program scales the sum `Σ_k … + B[j]` once; the other scales
  the matrix product and the bias separately and adds the three terms from the left:
      (X[r, j] + s · Σ_k …) + s · B[j].
  On the extended reals multiplication by a non-negative REAL factor distributes over every sum, infinite terms
  included, and addition is associative, so the two arrangements agree at every input: no finiteness is used.
-/
import Idealize.ShloMosaic.PureOps.Ideal
import Idealize.ShloMosaic.Lib.ValueIdx
import Mathlib.Data.EReal.Operations

noncomputable section

open scoped BigOperators

namespace Cert.ResidualLinear

open Idealize.ShloMosaic Idealize.ShloMosaic.ValueIdx

/-! ## The step size -/

/-- The step size `s`: what the binary32 word of `0.1` denotes on the extended reals. -/
def step : EReal := Ideal.ofBits .f32 0x3DCCCCCD#32

/-- It is the real number 13421773 / 2^27 (sign 0, exponent field 123, significand 2^23 + 5033165). -/
theorem step_eq : step = ((13421773 * (2 ^ 27)⁻¹ : ℝ) : EReal) := by
  simp [step, Ideal.ofBits, Ideal.ieee]

theorem step_nonneg : 0 ≤ step := by
  rw [step_eq]; exact EReal.coe_nonneg.mpr (by positivity)

theorem step_ne_top : step ≠ ⊤ := by
  rw [step_eq]; exact EReal.coe_ne_top _

/-- Scaling by the step distributes over a sum of ANY two extended reals: the factor is a non-negative real. -/
theorem step_mul_add (a b : EReal) : step * (a + b) = step * a + step * b :=
  EReal.left_distrib_of_nonneg_of_ne_top step_nonneg step_ne_top a b

/-- The two arrangements of the layer's element: the product and the bias scaled separately and added from the left,
    against their sum scaled once. -/
theorem scaled_terms_eq (x a b : EReal) : x + step * a + step * b = x + step * (a + b) := by
  rw [step_mul_add, add_assoc]

/-! ## The layer as one function of its three arrays -/

/-- The shapes of the input matrix, the weight matrix and the bias vector. -/
abbrev Rows : Shape := ⟨2, ![50000, 512]⟩
abbrev Weights : Shape := ⟨2, ![512, 512]⟩
abbrev Bias : Shape := ⟨1, ![512]⟩

/-- Row `r` of `X` against row `j` of `W`: the element `(r, j)` of `X · Wᵀ`. -/
def rowDot (X : FVec Ideal Rows .f32) (W : FVec Ideal Weights .f32) (r : Fin 50000) (j : Fin 512) : EReal :=
  ∑ k : Fin 512, X (ix2 r k) * W (ix2 j k)

/-- The residual linear layer, element by element. -/
def residual (X : FVec Ideal Rows .f32) (W : FVec Ideal Weights .f32) (B : FVec Ideal Bias .f32) : FVec Ideal Rows .f32 :=
  fun i => X i + step * (rowDot X W (i 0) (i 1) + B (ix1 (i 1)))

end Cert.ResidualLinear

end
-- ==== Proof.RefResidual.lean ====
/-
  The reference program's result is the residual linear layer.

  Read one operation at a time, the reference transposes `W`, contracts `X`'s feature axis with the transposed
  matrix's first axis — so the element `(r, j)` of the product is `Σ_k X[r, k] · W[j, k]` —, adds the bias broadcast
  along the rows, scales by the step and adds `X`.  That is `residual` literally; only the indices need matching.
-/
import proofs.«153678_g12850542150405_cont_fleet_1523_3_alg».proof.Proof.Gen.ReferenceIdeal.Read
import proofs.«153678_g12850542150405_cont_fleet_1523_3_alg».proof.Proof.Residual

noncomputable section

open scoped BigOperators

namespace Cert.ResidualLinear.Reference

open Cert.ReferenceIdeal Cert.ReferenceIdeal.Gen Cert.ReferenceIdeal.Read
open Idealize.ShloMosaic Idealize.ShloMosaic.ValueIdx Cert.ResidualLinear

/-- The product's left factor sits at row `r`, feature `k`. -/
theorem left_index (i : S50000x512.Idx) (k : Fin 512) : lidx_main_v1 i k = ix2 (i 0) k :=
  funext fun a => match a with | ⟨0, _⟩ => rfl | ⟨1, _⟩ => rfl

/-- Its right factor, read through the transpose, sits at row `j` of `W`, feature `k`. -/
theorem right_index (i : S50000x512.Idx) (k : Fin 512) : idx_main_v0 (ridx_main_v1 i k) = ix2 (i 1) k :=
  funext fun a => match a with | ⟨0, _⟩ => rfl | ⟨1, _⟩ => rfl

/-- The bias, broadcast twice, is read at the column. -/
theorem bias_index (i : S50000x512.Idx) : idx_main_v2 (idx_main_v3 i) = ix1 (i 1) :=
  funext fun a => match a with | ⟨0, _⟩ => rfl

/-- The reference's last stage is `residual` of the three arguments. -/
theorem result_eq (X : FVec Ideal Rows .f32) (W : FVec Ideal Weights .f32) (B : FVec Ideal Bias .f32) :
    val_main_v7 (F := Ideal) X W B = residual X W B := by
  funext i
  rw [val_main_v7_apply, val_main_v6_apply, val_main_v5_apply, val_main_cst_apply, val_main_v4_apply,
    val_main_v1_apply, val_main_v3_apply, val_main_v2_apply]
  simp only [val_main_v0_apply, left_index, right_index, bias_index, Ideal.addf_def, Ideal.mulf_def, Ideal.ofBits_def]
  rfl

end Cert.ResidualLinear.Reference

end
-- ==== Proof.Payload.lean ====
/-
  What one grid step computes, element by element.

  A step holds a block `x` of 2000 rows of `X`, the whole weight matrix `w` and the bias as a single row `b`.
  Its matrix product contracts the feature axis of `x` with the SECOND axis of `w`, so its element `(p, q)` is
  `Σ_k x[p, k] · w[q, k]`: row `p` of the block against row `q` of the weights.  The narrowing of both operands to a
  shorter float format is the identity on the extended reals, and the accumulator starts at zero.  The step then
  scales the product and the bias row separately and adds: `(x[p, q] + s · Σ_k …) + s · b[0, q]`.
-/
import proofs.«153678_g12850542150405_cont_fleet_1523_3_alg».proof.Proof.Gen.KernelIdeal.Skeleton
import proofs.«153678_g12850542150405_cont_fleet_1523_3_alg».proof.Proof.Residual
import Idealize.ShloMosaic.Lib.Pipeline.Value
import Idealize.ShloMosaic.Lib.ValueIdx
import Idealize.ShloMosaic.PureOps.Ideal.Laws

noncomputable section

open scoped BigOperators

namespace Cert.ResidualLinear.Step

open Cert.KernelIdeal Cert.KernelIdeal.Gen
open Idealize.ShloMosaic Idealize.ShloMosaic.ValueIdx Cert.ResidualLinear

/-! ## The matrix product at an index -/

/-- The left operand is read at the output's row … -/
theorem lhs_axis0 (i : S2000x512.Idx) (q : dot_S2000x512_S512x512_S2000x512_1_1_0_0_n_n.contr.Idx) :
    (dot_S2000x512_S512x512_S2000x512_1_1_0_0_n_n.lhsIdx i q 0).val = (i 0).val := by
  unfold DotDims.lhsIdx
  rw [dif_neg (show ¬(0 : Fin S2000x512.rank) ∈ dot_S2000x512_S512x512_S2000x512_1_1_0_0_n_n.lhsBatch by decide), dif_pos (show (0 : Fin S2000x512.rank) ∈ dot_S2000x512_S512x512_S2000x512_1_1_0_0_n_n.lhsNonContracting by decide)]
  rfl
/-- … and the contraction position; -/
theorem lhs_axis1 (i : S2000x512.Idx) (q : dot_S2000x512_S512x512_S2000x512_1_1_0_0_n_n.contr.Idx) :
    (dot_S2000x512_S512x512_S2000x512_1_1_0_0_n_n.lhsIdx i q 1).val = (q ⟨0, by decide⟩).val :=
  dot_S2000x512_S512x512_S2000x512_1_1_0_0_n_n.lhsIdx_val_of_single rfl i q
/-- the right operand at the output's COLUMN on its first axis … -/
theorem rhs_axis0 (i : S2000x512.Idx) (q : dot_S2000x512_S512x512_S2000x512_1_1_0_0_n_n.contr.Idx) :
    (dot_S2000x512_S512x512_S2000x512_1_1_0_0_n_n.rhsIdx i q 0).val = (i 1).val := by
  unfold DotDims.rhsIdx
  rw [dif_neg (show ¬(0 : Fin S512x512.rank) ∈ dot_S2000x512_S512x512_S2000x512_1_1_0_0_n_n.rhsBatch by decide), dif_pos (show (0 : Fin S512x512.rank) ∈ dot_S2000x512_S512x512_S2000x512_1_1_0_0_n_n.rhsNonContracting by decide)]
  rfl
/-- … and the contraction position on its second. -/
theorem rhs_axis1 (i : S2000x512.Idx) (q : dot_S2000x512_S512x512_S2000x512_1_1_0_0_n_n.contr.Idx) :
    (dot_S2000x512_S512x512_S2000x512_1_1_0_0_n_n.rhsIdx i q 1).val = (q ⟨0, by decide⟩).val :=
  dot_S2000x512_S512x512_S2000x512_1_1_0_0_n_n.rhsIdx_val_of_single rfl i q

/-- The product into a zero accumulator, at `(p, q)`: row `p` of the left operand against row `q` of the right. -/
theorem product_apply {φ₁ φ₂ : FTy} (a : FVec Ideal S2000x512 φ₁) (b : FVec Ideal S512x512 φ₂) (p : Fin 2000) (q : Fin 512) :
    matmul dot_S2000x512_S512x512_S2000x512_1_1_0_0_n_n none a b (constant S2000x512 .f32 0x00000000#32) (ix2 p q)
      = ∑ k : Fin 512, a (ix2 p k) * b (ix2 q k) := by
  simp only [matmul]
  rw [Ideal.matmul_constant_zero_apply, ← Equiv.sum_comp (ValueIdx.contrEquiv1 dot_S2000x512_S512x512_S2000x512_1_1_0_0_n_n 512 rfl rfl).symm]
  refine Finset.sum_congr rfl fun k _ => ?_
  have hk := ValueIdx.contrEquiv1_symm_val dot_S2000x512_S512x512_S2000x512_1_1_0_0_n_n 512 rfl rfl k
  have el : dot_S2000x512_S512x512_S2000x512_1_1_0_0_n_n.lhsIdx (ix2 p q) ((ValueIdx.contrEquiv1 dot_S2000x512_S512x512_S2000x512_1_1_0_0_n_n 512 rfl rfl).symm k) = ix2 p k := funext fun d => Fin.ext (by
    match d with
    | ⟨0, _⟩ => exact lhs_axis0 _ _
    | ⟨1, _⟩ => exact (lhs_axis1 _ _).trans hk)
  have er : dot_S2000x512_S512x512_S2000x512_1_1_0_0_n_n.rhsIdx (ix2 p q) ((ValueIdx.contrEquiv1 dot_S2000x512_S512x512_S2000x512_1_1_0_0_n_n 512 rfl rfl).symm k) = ix2 q k := funext fun d => Fin.ext (by
    match d with
    | ⟨0, _⟩ => exact rhs_axis0 _ _
    | ⟨1, _⟩ => exact (rhs_axis1 _ _).trans hk)
  rw [el, er]

/-! ## The bias row spread over the block -/

/-- The one-row vector broadcast to the block's shape is read at its column. -/
theorem row_spread_apply (v : FVec Ideal S1x512 .f32) (p : Fin 2000) (q : Fin 512) :
    broadcastTo S2000x512 v broadcasts_S1x512_S2000x512 (ix2 p q) = v (ix2 (0 : Fin 1) q) :=
  broadcastTo_apply v broadcasts_S1x512_S2000x512 (ix2 p q) (ix2 (0 : Fin 1) q) (fun d => match d with
    | ⟨0, _⟩ => by show 0 = if (1 : Nat) = 1 then 0 else _; rw [if_pos rfl]
    | ⟨1, _⟩ => by show q.val = if (512 : Nat) = 1 then 0 else q.val; rw [if_neg (by decide)])

/-! ## The step's stored value at an index -/

/-- What the step stores at `(p, q)` of its block. -/
theorem stored_apply (x : Vec Ideal S2000x512 .f32) (w : Vec Ideal S512x512 .f32) (b : Vec Ideal S1x512 .f32)
    (p : Fin 2000) (q : Fin 512) :
    k0_pay1 (F := Ideal) x w b (ix2 p q)
      = x (ix2 p q) + step * (∑ k : Fin 512, x (ix2 p k) * w (ix2 q k)) + step * b (ix2 (0 : Fin 1) q) := by
  unfold k0_pay1
  rw [addf_apply, addf_apply, row_spread_apply, mulf_apply, mulf_apply, product_apply, shapeCast_self]
  rfl

/-- So wherever the step's block holds row `r` of `X` at its row `p`, its weights hold row `j` of `W` at row `q`,
    and its bias row holds `B[j]` at column `q`, the stored element is the layer's element `(r, j)`: the two
    arrangements of the scaled terms agree on all extended reals. -/
theorem stored_eq_residual (x : Vec Ideal S2000x512 .f32) (w : Vec Ideal S512x512 .f32) (b : Vec Ideal S1x512 .f32)
    (X : FVec Ideal Rows .f32) (W : FVec Ideal Weights .f32) (B : FVec Ideal Bias .f32)
    (p : Fin 2000) (q : Fin 512) (r : Fin 50000) (j : Fin 512)
    (hx : ∀ k : Fin 512, x (ix2 p k) = X (ix2 r k)) (hxq : x (ix2 p q) = X (ix2 r j))
    (hw : ∀ k : Fin 512, w (ix2 q k) = W (ix2 j k)) (hb : b (ix2 (0 : Fin 1) q) = B (ix1 j)) :
    k0_pay1 (F := Ideal) x w b (ix2 p q) = residual X W B (ix2 r j) := by
  rw [stored_apply, scaled_terms_eq, hxq, hb]
  simp only [hx, hw]
  rfl

end Cert.ResidualLinear.Step

end
-- ==== Proof.KernelArray.lean ====
/-
  From the grid steps to the whole output array.

  The grid has 25 steps.  Step `t` reads rows `2000·t … 2000·t + 1999` of `X`, the whole weight matrix and the whole
  bias row (the bias vector reshaped to one row before the steps begin), and writes the same 2000 rows of the output.
  So the element `(p, q)` of what step `t` writes is the layer's element `(2000·t + p, q)`; the 25 row blocks are
  disjoint and every row `r` lies in the block of step `r / 2000`, hence after the run the output array is the
  layer of the three argument arrays, everywhere.
-/
import proofs.«153678_g12850542150405_cont_fleet_1523_3_alg».proof.Proof.Gen.KernelIdeal.Value
import proofs.«153678_g12850542150405_cont_fleet_1523_3_alg».proof.Proof.Payload
import Idealize.ShloMosaic.Lib.StableHlo.Run

noncomputable section

namespace Cert.ResidualLinear.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.ResidualLinear Cert.ResidualLinear.Step

variable (m : (ℓ : Loc nD τ sig) → Buf (Elt Ideal) ℓ) (ρ : Dev nD → PrngReg)

/-! ## Which block each step holds -/

theorem no_offset : (![0, 0] : Fin 2 → Nat) = fun _ => 0 := funext fun a => by fin_cases a <;> rfl

/-- The block indices, decided over the 25 steps: the input rows and the output rows move with the step, the
    weights and the bias row stay at their one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem step_lt (t : Fin cfg0.N) : t.val < 25 := by
  have h := t.isLt
  have hN : cfg0.N = 25 := N_0
  omega

/-- Row `p` of step `t`'s input block is row `2000·t + p` of `X`. -/
theorem rows_read (c : Dev nD) (t : Fin cfg0.N) (p : Fin 2000) (k : Fin 512) (h : t.val * 2000 + p.val < 50000) :
    iblk m c 0 t (ix2 p k) = V m c main_arg0 (ix2 (⟨t.val * 2000 + p.val, h⟩ : Fin 50000) k) := by
  obtain ⟨e0, e1, -⟩ := block_index t
  show V m c main_arg0 (((cfg0.win 0).blk t).view.emb (ix2 p k)) = _
  refine congrArg (V m c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 512 + 1 * k.val = k.val; omega

/-- Every step's weight block is the whole of `W`. -/
theorem weights_read (c : Dev nD) (t : Fin cfg0.N) (q k : Fin 512) :
    iblk m c 1 t (ix2 q k) = V m c main_arg1 (ix2 q k) := by
  obtain ⟨-, -, e0, e1, -⟩ := block_index t
  show V m c main_arg1 (((cfg0.win 1).blk t).view.emb (ix2 q k)) = _
  refine congrArg (V m c main_arg1) (funext fun a => Fin.ext ?_)
  match a with
  | ⟨0, _⟩ => show win0_1.index t (0 : Fin 2) * 512 + 1 * q.val = q.val; omega
  | ⟨1, _⟩ => show win0_1.index t (1 : Fin 2) * 512 + 1 * k.val = k.val; omega

/-- Every step's bias block is the whole one-row array. -/
theorem bias_row_read (c : Dev nD) (t : Fin cfg0.N) (q : Fin 512) :
    iblk m c 2 t (ix2 (0 : Fin 1) q) = V m c main_call0_v0 (ix2 (0 : Fin 1) q) := by
  obtain ⟨-, -, -, -, e0, e1, -⟩ := block_index t
  show V m c main_call0_v0 (((cfg0.win 2).blk t).view.emb (ix2 (0 : Fin 1) q)) = _
  refine congrArg (V m c main_call0_v0) (funext fun a => Fin.ext ?_)
  match a with
  | ⟨0, _⟩ => show win0_2.index t (0 : Fin 2) * 1 + 1 * 0 = 0; omega
  | ⟨1, _⟩ => show win0_2.index t (1 : Fin 2) * 512 + 1 * q.val = q.val; omega

/-- The one-row array the steps read is the bias vector reshaped: its column `q` is `B[q]`. -/
theorem bias_row_apply (c : Dev nD) (q : Fin 512) :
    V m c main_call0_v0 (ix2 (0 : Fin 1) q) = m ((c : Thread nD τ).loc main_arg2) (ix1 q) := by
  have e : (V m c main_call0_v0 : S1x512.Idx → EReal)
      = shapeCast S1x512 (m ((c : Thread nD τ).loc main_arg2)) shapeCasts_S512_S1x512 := by
    dsimp only [V, hostOps0]; after_results; rfl
  rw [e]
  refine shapeCast_apply _ shapeCasts_S512_S1x512 (ix2 (0 : Fin 1) q) (ix1 q) ?_
  rw [Shape.rowMajor_val_one, Shape.rowMajor_val_two]
  show q.val = 0 * 512 + q.val
  omega

/-! ## What a step writes back -/

/-- Step `t` writes back block `t` of the layer of the arrays as the steps find them. -/
theorem written_eq (c : Dev nD) (t : Fin cfg0.N) :
    (dats m 0 c).flushed 3 t = ((cfg0.win 3).blk t).view.read (Elt Ideal)
      (residual (V m c main_arg0) (V m c main_arg1) (m ((c : Thread nD τ).loc main_arg2))) := by
  rw [flushed3]
  unfold out0_3
  rw [View.canon_unit_zero no_offset]
  simp only [View.ld_unit_zero (S := S2000x512) no_offset, View.ld_unit_zero (S := S512x512) no_offset,
    View.ld_unit_zero (S := S1x512) no_offset]
  funext y
  obtain ⟨p, q, rfl⟩ : ∃ (p : Fin 2000) (q : Fin 512), y = ix2 p q := ⟨y 0, y 1, eq_ix2 y⟩
  have ht := step_lt t
  obtain ⟨-, -, -, -, -, -, e0, e1⟩ := block_index t
  have hrow : t.val * 2000 + p.val < 50000 := by have := p.isLt; omega
  have hi : ((cfg0.win 3).blk t).view.emb (ix2 p q) = ix2 (⟨t.val * 2000 + p.val, hrow⟩ : Fin 50000) q := by
    funext a; apply Fin.ext
    match a with
    | ⟨0, _⟩ => show win0_3.index t (0 : Fin 2) * 2000 + 1 * p.val = t.val * 2000 + p.val; omega
    | ⟨1, _⟩ => show win0_3.index t (1 : Fin 2) * 512 + 1 * q.val = q.val; omega
  show k0_pay1 (F := Ideal) (iblk m c 0 t) (iblk m c 1 t) (iblk m c 2 t) (ix2 p q)
      = residual (V m c main_arg0) (V m c main_arg1) (m ((c : Thread nD τ).loc main_arg2)) (((cfg0.win 3).blk t).view.emb (ix2 p q))
  rw [hi]
  exact stored_eq_residual _ _ _ _ _ _ p q ⟨t.val * 2000 + p.val, hrow⟩ q
    (fun k => rows_read m c t p k hrow) (rows_read m c t p q hrow)
    (fun k => weights_read m c t q k) ((bias_row_read m c t q).trans (bias_row_apply m c q))

/-! ## The blocks fill the array -/

/-- An index of the output lies in step `t`'s block iff each coordinate lies in the block's range. -/
theorem mem_block (t : Fin cfg0.N) (i : S50000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v0).slice (win0_3.rect t)).set ↔ _
  rw [View.set_slice_whole, Rect.mem_set_unit]
  exact Iff.rfl

/-- Row `r` lies in the block of step `r / 2000`. -/
theorem covered (i : S50000x512.Idx) :
    ∃ t : Fin cfg0.N, (cfg0.win 3).flush t = true ∧ i ∈ ((cfg0.win 3).blk t).view.set := by
  have hi0 : (i 0).val < 50000 := (i 0).isLt
  have hi1 : (i 1).val < 512 := (i 1).isLt
  have hN : cfg0.N = 25 := N_0
  let t : Fin cfg0.N := ⟨(i 0).val / 2000, by omega⟩
  obtain ⟨-, -, -, -, -, -, e0, e1⟩ := block_index t
  have e0' : win0_3.index t (0 : Fin 2) = (i 0).val / 2000 := e0
  refine ⟨t, flush0_3 t, ?_⟩
  rw [mem_block]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 512 ≤ (i 1).val ∧ (i 1).val < win0_3.index t (1 : Fin 2) * 512 + 512; omega

/-- After the run the output array is the layer of the three argument arrays. -/
theorem output_eq (c : Dev nD) :
    (dats m 0 c).arrAt 3 cfg0.N
      = residual (m ((c : Thread nD τ).loc main_arg0)) (m ((c : Thread nD τ).loc main_arg1)) (m ((c : Thread nD τ).loc main_arg2)) := by
  have h := (dats m 0 c).arrAt_eq_of_cover 3
    (residual (V m c main_arg0) (V m c main_arg1) (m ((c : Thread nD τ).loc main_arg2)))
    (fun t _ => written_eq m c t) covered
  rw [V_main_arg0, V_main_arg1] at h
  exact h

/-! ## The run, read -/

/-- Every weakly fair execution of the program ends with the output array at the layer of the arguments and the
    arguments as they were. -/
theorem run : θ_run defs (onTc (τ := τ) (main (F := Ideal))) ⟨m, fun _ => 0, ρ⟩ fun r => ∀ c : Dev nD,
      r.2.mem ((c : Thread nD τ).loc main_v0)
        = residual (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (output_eq m c), (h c).2⟩) (run_blocks m ρ)

end Cert.ResidualLinear.Blocks

end
-- ==== Proof.lean ====
/-
  A residual linear layer, tiled by rows, against its plain definition.

  Both programs compute, for a matrix `X` (50000 × 512), a square weight matrix `W` and a bias vector `B`,
      out[r, j] = X[r, j] + s · ( Σ_k X[r, k] · W[j, k] + B[j] ),
  `s` being the binary32 number nearest one tenth (the same word in both, never evaluated further than "a
  non-negative real").  The tiled program walks 25 blocks of 2000 rows; in each it multiplies the block by the
  weights (contracting the feature axis of both, so no transpose is formed), and adds `s` times the product and
  `s` times the bias row to the block, term by term from the left.  The plain program transposes `W`, multiplies,
  adds the bias, scales the sum once and adds `X`.  Narrowing the matrix product's operands to a shorter float
  format is the identity on the extended reals, a matrix product into a zero accumulator is the plain sum over the
  contracted axis, and scaling by a non-negative real distributes over any sum of extended reals; with associativity of
  addition the two element formulas coincide at every input, so the finiteness of the inputs is never used.

  Modules: `Residual` (the layer as one function, the step size, the distributive law), `RefResidual` (the plain
  program's stages compose to the layer), `Payload` (one grid step's stored element), `KernelArray` (the 25 row
  blocks tile the output, so the tiled program's output array is the layer).  The idealization rewrote nothing, so
  there is nothing to preserve beyond the program's own text.
-/
import proofs.«153678_g12850542150405_cont_fleet_1523_3_alg».proof.Defs
import proofs.«153678_g12850542150405_cont_fleet_1523_3_alg».proof.Proof.Gen.Kernel
import proofs.«153678_g12850542150405_cont_fleet_1523_3_alg».proof.Proof.Gen.Kernel.Skeleton
import proofs.«153678_g12850542150405_cont_fleet_1523_3_alg».proof.Proof.Gen.Kernel.Launch
import proofs.«153678_g12850542150405_cont_fleet_1523_3_alg».proof.Proof.Gen.Kernel.Points
import proofs.«153678_g12850542150405_cont_fleet_1523_3_alg».proof.Proof.Gen.Kernel.Frame
import proofs.«153678_g12850542150405_cont_fleet_1523_3_alg».proof.Proof.Gen.KernelIdeal
import proofs.«153678_g12850542150405_cont_fleet_1523_3_alg».proof.Proof.Gen.KernelIdeal.Skeleton
import proofs.«153678_g12850542150405_cont_fleet_1523_3_alg».proof.Proof.Gen.KernelIdeal.Launch
import proofs.«153678_g12850542150405_cont_fleet_1523_3_alg».proof.Proof.Gen.KernelIdeal.Points
import proofs.«153678_g12850542150405_cont_fleet_1523_3_alg».proof.Proof.Gen.KernelIdeal.Frame
import proofs.«153678_g12850542150405_cont_fleet_1523_3_alg».proof.Proof.Gen.ReferenceIdeal
import proofs.«153678_g12850542150405_cont_fleet_1523_3_alg».proof.Proof.Gen.Pre_finite_inputs
import proofs.«153678_g12850542150405_cont_fleet_1523_3_alg».proof.Proof.Gen.KernelIdeal.Value
import proofs.«153678_g12850542150405_cont_fleet_1523_3_alg».proof.Proof.Gen.ReferenceIdeal.Run
import proofs.«153678_g12850542150405_cont_fleet_1523_3_alg».proof.Proof.Gen.ReferenceIdeal.Read
import proofs.«153678_g12850542150405_cont_fleet_1523_3_alg».proof.Proof.RefResidual
import proofs.«153678_g12850542150405_cont_fleet_1523_3_alg».proof.Proof.KernelArray
import Idealize.ShloMosaic.Adequacy
import Idealize.ShloMosaic.Init

noncomputable section

namespace Cert.Proof

open Idealize.ShloMosaic Idealize.ShloMosaic.TcCoe Idealize.SL.Sem

/-- The word-level tiled program terminates without fault and leaves its arguments as they were. -/
theorem frame_tiled : Cert.frame_Kernel := fun m ρ _ => Cert.Kernel.Gen.frame m ρ

/-- So does its reading on the extended reals. -/
theorem frame_tiled_ideal : Cert.frame_KernelIdeal := fun m ρ _ => Cert.KernelIdeal.Gen.frame m ρ

/-- The plain program is a straight line of host operations: its run, with the result forgotten. -/
theorem frame_plain_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the layer of their (agreeing) arguments. -/
theorem algebraic : Cert.algebraic_KernelIdeal_ReferenceIdeal := by
  intro m ρ m' ρ' _ hagree
  refine ⟨_, Cert.ResidualLinear.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ResidualLinear.Reference.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_tiled, frame_tiled_ideal, frame_plain_ideal, preserves, algebraic⟩

end Cert.Proof

end
